-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S50000 32) (main_arg1 : FVec F S100000x128 .f32) (main_arg2 : IVec S2x1600000 32) (main_arg3 : FVec F S128x256 .f32) (main_arg4 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S50000x1 : Shape := ⟨2, ![50000, 1]⟩
abbrev S50000x128 : Shape := ⟨2, ![50000, 128]⟩
abbrev S128x128 : Shape := ⟨2, ![128, 128]⟩
abbrev S1x128 : Shape := ⟨2, ![1, 128]⟩
abbrev S5000x128 : Shape := ⟨2, ![5000, 128]⟩

abbrev nBuf : Space → Nat
  | .hbm => 58
  | .vmem => 9
  | .smem => 0
  | _ => 0

abbrev bufTy : (tb : Table) → Fin (tcTables nBuf tb) → BufTy
  | .hbm, ⟨0, _⟩ => ⟨S50000, .i32⟩
  | .hbm, ⟨1, _⟩ => ⟨S100000x128, .f32⟩
  | .hbm, ⟨2, _⟩ => ⟨S2x1600000, .i32⟩
  | .hbm, ⟨3, _⟩ => ⟨S128x256, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S1x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S50000x1_S50000x128_1_0_n_n_0_1_1128_wf : GatherDims.WF S100000x128 S50000x1 S50000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S50000x1 : Shape := ⟨2, ![50000, 1]⟩
abbrev S50000x128 : Shape := ⟨2, ![50000, 128]⟩
abbrev S50000x256 : Shape := ⟨2, ![50000, 256]⟩
abbrev S256x128 : Shape := ⟨2, ![256, 128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000, .i32⟩
  | .hbm, ⟨1, _⟩ => ⟨S100000x128, .f32⟩
  | .hbm, ⟨2, _⟩ => ⟨S2x1600000, .i32⟩
  | .hbm, ⟨3, _⟩ => ⟨S128x256, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000x128, .f32⟩
  | .hbm, ⟨52, _⟩ => ⟨S50000x256, .f32⟩
  | .hbm, ⟨53, _⟩ => ⟨S256x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S50000x1_S50000x128_1_0_n_n_0_1_1128_wf : GatherDims.WF S100000x128 S50000x1 S50000x128 [1] [0] [] [0] [] 1 ![1, 128]
  dot_S50000x256_S256x128_S50000x128_1_0_0_1_n_n_wf : DotDims.WF S50000x256 S256x128 S50000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Spec.lean ====
/-
  The mathematics of one mean-aggregating graph layer's dense tail, on the extended reals.

  Every seed node `p` carries two rows of 128 numbers: its own features `s p` and the mean `n p` of its
  neighbours' features. The layer's weight `W` has 128 rows of 256 numbers: the first 128 columns multiply the
  node's own row, the last 128 its neighbours' mean. Entry `(p, j)` of the result is
      max (∑ₖ s(p,k)·W(j,k) + ∑ₖ n(p,k)·W(j,128+k) + b(j)) 0.
  One program computes the two sums apart; the other lays the two rows side by side into one row of 256 and takes
  ONE sum over all 256 columns. The two agree because a sum over `Fin 256` is the sum over its first 128 indices
  plus the sum over its last 128 — a regrouping of one finite sum in a commutative monoid, valid on the extended
  reals with no finiteness assumption.
-/
import Mathlib.Algebra.BigOperators.Fin
import Idealize.ShloMosaic.PureOps.Ideal
import Idealize.ShloMosaic.Lib.ValueIdx

noncomputable section

open scoped BigOperators

namespace Cert.SageLayer

open Idealize.ShloMosaic Idealize.ShloMosaic.ValueIdx

/-- Column `k` of the weight's first half, as a column of the whole weight. -/
def lo (k : Fin 128) : Fin 256 := ⟨k.val, by have := k.isLt; omega⟩

/-- Column `k` of the weight's second half, as a column of the whole weight. -/
def hi (k : Fin 128) : Fin 256 := ⟨128 + k.val, by have := k.isLt; omega⟩

@[simp] theorem lo_val (k : Fin 128) : (lo k).val = k.val := rfl
@[simp] theorem hi_val (k : Fin 128) : (hi k).val = 128 + k.val := rfl

/-- A sum over the 256 columns is the sum over the first half plus the sum over the second half. -/
theorem sum_halves (f : Fin 256 → EReal) :
    ∑ c : Fin 256, f c = ∑ k : Fin 128, f (lo k) + ∑ k : Fin 128, f (hi k) :=
  Fin.sum_univ_add (M := EReal) (a := 128) (b := 128) f

/-- Entry `(p, j)` of the layer: the node's own row against the first half of weight row `j`, its neighbours'
    mean against the second half, the bias, then the positive part. -/
def entry (s n : (⟨2, ![50000, 128]⟩ : Shape).Idx → EReal) (W : (⟨2, ![128, 256]⟩ : Shape).Idx → EReal)
    (b : (⟨1, ![128]⟩ : Shape).Idx → EReal) (p : Fin 50000) (j : Fin 128) : EReal :=
  max ((∑ k : Fin 128, s (ix2 p k) * W (ix2 j (lo k)) + ∑ k : Fin 128, n (ix2 p k) * W (ix2 j (hi k))) + b (ix1 j)) 0

/-- The layer's whole result, index by index. -/
def layer (s n : (⟨2, ![50000, 128]⟩ : Shape).Idx → EReal) (W : (⟨2, ![128, 256]⟩ : Shape).Idx → EReal)
    (b : (⟨1, ![128]⟩ : Shape).Idx → EReal) : (⟨2, ![50000, 128]⟩ : Shape).Idx → EReal :=
  fun i => entry s n W b (i 0) (i 1)

theorem layer_apply (s n : (⟨2, ![50000, 128]⟩ : Shape).Idx → EReal) (W : (⟨2, ![128, 256]⟩ : Shape).Idx → EReal)
    (b : (⟨1, ![128]⟩ : Shape).Idx → EReal) (p : Fin 50000) (j : Fin 128) :
    layer s n W b (ix2 p j) = entry s n W b p j := rfl

/-- The one-sum form: with the two rows laid side by side as `row`, whose first half is `s p` and second half
    `n p`, the single sum over all 256 columns is the layer's two sums. -/
theorem entry_of_joined (s n : (⟨2, ![50000, 128]⟩ : Shape).Idx → EReal) (W : (⟨2, ![128, 256]⟩ : Shape).Idx → EReal)
    (b : (⟨1, ![128]⟩ : Shape).Idx → EReal) (p : Fin 50000) (j : Fin 128) (row : Fin 256 → EReal)
    (hlo : ∀ k, row (lo k) = s (ix2 p k)) (hhi : ∀ k, row (hi k) = n (ix2 p k)) :
    max ((∑ c : Fin 256, row c * W (ix2 j c)) + b (ix1 j)) 0 = entry s n W b p j := by
  unfold entry
  rw [sum_halves]
  simp only [hlo, hhi]

end Cert.SageLayer

end
-- ==== Proof.KernelBody.lean ====
/-
  What the kernel's body stores, read at one entry of its block.

  At a grid point the body holds a block of 5000 seed nodes: their own rows `x0`, their neighbours' means `x1`, the
  two 128×128 halves of the transposed weight `x2`, `x3`, and the bias as one row `x4`. It multiplies the own rows by
  the first half and the means by the second (each product into a zero accumulator; the narrowing of the operands to a
  shorter float format is the identity on the extended reals), adds the two, adds the bias row to every row, and takes
  the positive part. So entry (p, q) of what it stores is
      max (∑ₖ x0(p,k)·x2(k,q) + ∑ₖ x1(p,k)·x3(k,q) + x4(0,q)) 0.
-/
import proofs.«117298_j42502996361302_1_alg».proof.Proof.Gen.KernelIdeal.Skeleton
import proofs.«117298_j42502996361302_1_alg».proof.Proof.LibPlainDot
import proofs.«117298_j42502996361302_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The block product's dimension numbers, axis by axis: rows of the left operand, the one contracted axis, columns
    of the right operand -/

theorem lhs_rows (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_cols (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block product into zeros, at entry (p, q), is the sum over the 128 shared columns — whatever float formats the
    two operands are typed at. -/
theorem block_dot_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply]
  exact Cert.LibPlainDot.sum_plain dot_S5000x128_S128x128_S5000x128_1_0_0_1_n_n rfl rfl lhs_rows lhs_contr rhs_contr rhs_cols l r p q

/-- THE BODY'S STORED VALUE at entry (p, q) of the block. -/
theorem stored_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k0_pay1
  simp only [shapeCast_self]
  rw [maximumf_apply, addf_apply, addf_apply, broadcast_apply, block_dot_apply, block_dot_apply, broadcastTo_1b_ab_apply,
    Cert.LibPlainDot.scalar_zero]
  rfl

/-- THE STORED ENTRY IS THE LAYER'S: if the block's own rows and neighbour means are rows `r` of two tables `s`, `n`
    (node `p` of the block is node `r` of the batch), the two weight blocks are the two halves of `W` transposed, and
    the bias row is `b`, then what the body stores at (p, q) is the layer's entry (r, q) (Spec.lean). -/
theorem stored_is_entry (s n : (⟨2, ![50000, 128]⟩ : Shape).Idx → EReal) (W : (⟨2, ![128, 256]⟩ : Shape).Idx → EReal)
    (b : (⟨1, ![128]⟩ : Shape).Idx → EReal)
    (x0 x1 : Vec Ideal S5000x128 .f32) (x2 x3 : Vec Ideal S128x128 .f32) (x4 : Vec Ideal S1x128 .f32)
    (r : Fin 50000) (p : Fin 5000) (q : Fin 128)
    (h0 : ∀ k : Fin 128, x0 (ix2 p k) = s (ix2 r k)) (h1 : ∀ k : Fin 128, x1 (ix2 p k) = n (ix2 r k))
    (h2 : ∀ k : Fin 128, x2 (ix2 k q) = W (ix2 q (Cert.SageLayer.lo k)))
    (h3 : ∀ k : Fin 128, x3 (ix2 k q) = W (ix2 q (Cert.SageLayer.hi k)))
    (h4 : x4 (ix2 (0 : Fin 1) q) = b (ix1 q)) :
    k0_pay1 (F := Ideal) x0 x1 x2 x3 x4 (ix2 p q) = Cert.SageLayer.entry s n W b r q := by
  rw [stored_apply]
  unfold Cert.SageLayer.entry
  simp only [h0, h1, h2, h3, h4]

end Cert.KernelIdeal.Body

end
-- ==== Proof.KernelHost.lean ====
/-
  What the kernel's one region finds in the five arrays its windows stage.

  Before the region the program computes, on the host, exactly the operations the reference starts with: the seed
  nodes' own feature rows (a gather) and their neighbours' mean rows (a gather of scatter-added sums divided by the
  degree count). Those two tables are named here by the reference's own stages, as two functions of the arguments; what
  they compute from the graph is never opened — both programs apply the same chain to the same arguments. The other
  three arrays are re-layings of the weight and the bias: the first and the second 128 columns of the weight, each
  transposed, and the bias as one row. Read at an index:
      first half  (k, j) = W(j, k)        second half (k, j) = W(j, 128 + k)        bias row (0, j) = b(j).
-/
import proofs.«117298_j42502996361302_1_alg».proof.Proof.Gen.KernelIdeal.Frame
import proofs.«117298_j42502996361302_1_alg».proof.Proof.Gen.ReferenceIdeal.Read
import proofs.«117298_j42502996361302_1_alg».proof.Proof.Spec
import Idealize.ShloMosaic.Lib.StableHlo.Run
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx
open Cert.SageLayer

variable (m : (ℓ : Loc nD τ sig) → Buf (Elt Ideal) ℓ)

/-! ## The five arrays, each at its literal type -/

/-- The seed nodes' own rows, as the region finds them. -/
abbrev ownRows (c : Dev nD) : Vec Ideal S50000x128 .f32 := V m c main_v29
/-- The seed nodes' neighbour means, as the region finds them. -/
abbrev meanRows (c : Dev nD) : Vec Ideal S50000x128 .f32 := V m c main_v36
/-- The first half of the weight, transposed. -/
abbrev firstHalf (c : Dev nD) : Vec Ideal S128x128 .f32 := V m c main_v38
/-- The second half of the weight, transposed. -/
abbrev secondHalf (c : Dev nD) : Vec Ideal S128x128 .f32 := V m c main_v40
/-- The bias as one row. -/
abbrev biasRow (c : Dev nD) : Vec Ideal S1x128 .f32 := V m c main_v41

/-! ## The two row tables are the reference's -/

set_option maxRecDepth 8192 in
set_option maxHeartbeats 2000000 in
/-- The own rows are the reference's stage `%29` of the node list and the features. -/
theorem ownRows_eq (c : Dev nD) :
    ownRows m c = Cert.ReferenceIdeal.Read.val_main_v29 (F := Ideal)
      (m ((c : Thread nD τ).loc main_arg0)) (m ((c : Thread nD τ).loc main_arg1)) := by
  show V m c main_v29 = _
  dsimp only [V, hostOps0]
  after_results_simp <;> rfl

set_option maxRecDepth 8192 in
set_option maxHeartbeats 2000000 in
/-- The neighbour means are the reference's stage `%36` of the node list, the features and the edge list. -/
theorem meanRows_eq (c : Dev nD) :
    meanRows m c = Cert.ReferenceIdeal.Read.val_main_v36 (F := Ideal)
      (m ((c : Thread nD τ).loc main_arg0)) (m ((c : Thread nD τ).loc main_arg1)) (m ((c : Thread nD τ).loc main_arg2)) := by
  show V m c main_v36 = _
  dsimp only [V, hostOps0]
  after_results_simp <;> rfl

/-! ## The weight's halves and the bias, read at an index -/

set_option maxRecDepth 8192 in
/-- Entry (k, j) of the first half, transposed, is the weight at row `j`, column `k`. -/
theorem firstHalf_apply (c : Dev nD) (k j : Fin 128) :
    firstHalf m c (ix2 k j) = m ((c : Thread nD τ).loc main_arg3) (ix2 j (lo k)) := by
  have e : firstHalf m c = transpose S128x128 [1, 0]
      (extractStridedSlice S128x128 ![0, 0] (m ((c : Thread nD τ).loc main_arg3)) slices_S128x256_S128x128_0_0)
      transposes_S128x128_S128x128_1_0 := by
    show V m c main_v38 = _
    dsimp only [V, hostOps0]
    after_results_simp <;> rfl
  rw [e, transpose_ix2_apply, slice2_axis1_apply 0 _ _ j k (lo k) (by show k.val = 0 + k.val; omega)]

set_option maxRecDepth 8192 in
/-- Entry (k, j) of the second half, transposed, is the weight at row `j`, column `128 + k`. -/
theorem secondHalf_apply (c : Dev nD) (k j : Fin 128) :
    secondHalf m c (ix2 k j) = m ((c : Thread nD τ).loc main_arg3) (ix2 j (hi k)) := by
  have e : secondHalf m c = transpose S128x128 [1, 0]
      (extractStridedSlice S128x128 ![0, 128] (m ((c : Thread nD τ).loc main_arg3)) slices_S128x256_S128x128_0_128)
      transposes_S128x128_S128x128_1_0 := by
    show V m c main_v40 = _
    dsimp only [V, hostOps0]
    after_results_simp <;> rfl
  rw [e, transpose_ix2_apply, slice2_axis1_apply 128 _ _ j k (hi k) rfl]

set_option maxRecDepth 8192 in
/-- Entry (0, j) of the bias row is the bias at `j`. -/
theorem biasRow_apply (c : Dev nD) (j : Fin 128) :
    biasRow m c (ix2 (0 : Fin 1) j) = m ((c : Thread nD τ).loc main_arg4) (ix1 j) := by
  have e : biasRow m c = shapeCast S1x128 (m ((c : Thread nD τ).loc main_arg4)) shapeCasts_S128_S1x128 := by
    show V m c main_v41 = _
    dsimp only [V, hostOps0]
    after_results_simp <;> rfl
  rw [e, shapeCast_a_1a_apply]

/-! ## The same five facts with the region-entry contents written as the fold of the host operations over the launch
    memory (what `V` abbreviates): the form a block read meets once the contents are opened at a window's array -/

theorem ownRows_after (c : Dev nD) :
    (StableHlo.after hostOps0 (fun b => m (c, b)) main_v29 : Vec Ideal S50000x128 .f32)
      = Cert.ReferenceIdeal.Read.val_main_v29 (F := Ideal)
          (m ((c : Thread nD τ).loc main_arg0)) (m ((c : Thread nD τ).loc main_arg1)) :=
  ownRows_eq m c

theorem meanRows_after (c : Dev nD) :
    (StableHlo.after hostOps0 (fun b => m (c, b)) main_v36 : Vec Ideal S50000x128 .f32)
      = Cert.ReferenceIdeal.Read.val_main_v36 (F := Ideal)
          (m ((c : Thread nD τ).loc main_arg0)) (m ((c : Thread nD τ).loc main_arg1)) (m ((c : Thread nD τ).loc main_arg2)) :=
  meanRows_eq m c

theorem firstHalf_after (c : Dev nD) (k j : Fin 128) :
    (StableHlo.after hostOps0 (fun b => m (c, b)) main_v38 : Vec Ideal S128x128 .f32) (ix2 k j)
      = m ((c : Thread nD τ).loc main_arg3) (ix2 j (lo k)) :=
  firstHalf_apply m c k j

theorem secondHalf_after (c : Dev nD) (k j : Fin 128) :
    (StableHlo.after hostOps0 (fun b => m (c, b)) main_v40 : Vec Ideal S128x128 .f32) (ix2 k j)
      = m ((c : Thread nD τ).loc main_arg3) (ix2 j (hi k)) :=
  secondHalf_apply m c k j

theorem biasRow_after (c : Dev nD) (j : Fin 128) :
    (StableHlo.after hostOps0 (fun b => m (c, b)) main_v41 : Vec Ideal S1x128 .f32) (ix2 (0 : Fin 1) j)
      = m ((c : Thread nD τ).loc main_arg4) (ix1 j) :=
  biasRow_apply m c j

end Cert.KernelIdeal.Host

end
-- ==== Proof.KernelValue.lean ====
/-
  The kernel's result array, whole: the layer of the arguments.

  The region runs ten grid points; point `t` is given rows 5000·t … 5000·t + 4999 of the two row tables, the two whole
  weight halves and the whole bias row, and writes back rows 5000·t … 5000·t + 4999 of the result. By KernelBody.lean
  what it stores at (p, q) is the layer's entry at node 5000·t + p, column q; so what it writes back is block `t` of the
  layer's whole result. The ten blocks are disjoint and together cover all 50000 rows (row `r` lies in block
  `r / 5000`), so after the run the result array is the layer's result, index by index.
-/
import proofs.«117298_j42502996361302_1_alg».proof.Proof.Gen.KernelIdeal.Value
import proofs.«117298_j42502996361302_1_alg».proof.Proof.KernelBody
import proofs.«117298_j42502996361302_1_alg».proof.Proof.KernelHost

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.ValueIdx
open Idealize.ShloMosaic.Pipeline (Dat)
open Cert.SageLayer Cert.KernelIdeal.Host

variable (m : (ℓ : Loc nD τ sig) → Buf (Elt Ideal) ℓ) (ρ : Dev nD → PrngReg)

/-- The layer of this memory's arguments: the two row tables (the reference's stages of the node list, the features
    and the edge list), the weight and the bias. -/
abbrev result (c : Dev nD) : S50000x128.Idx → EReal :=
  layer
    (Cert.ReferenceIdeal.Read.val_main_v29 (F := Ideal) (m ((c : Thread nD τ).loc main_arg0)) (m ((c : Thread nD τ).loc main_arg1)))
    (Cert.ReferenceIdeal.Read.val_main_v36 (F := Ideal) (m ((c : Thread nD τ).loc main_arg0)) (m ((c : Thread nD τ).loc main_arg1))
      (m ((c : Thread nD τ).loc main_arg2)))
    (m ((c : Thread nD τ).loc main_arg3)) (m ((c : Thread nD τ).loc main_arg4))

theorem zero_offsets : (![0, 0] : Fin 2 → Nat) = fun _ => 0 := funext fun a => by fin_cases a <;> rfl

/-- The printed index maps, decided over the ten points: the two row tables and the result move with the point along
    the rows; the weight halves and the bias stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Node `p` of point `t`'s block is node `5000·t + p` of the batch. -/
def node (t : Fin cfg0.N) (p : Fin 5000) : Fin 50000 :=
  ⟨t.val * 5000 + p.val, by have := t.isLt; have hN : cfg0.N = 10 := N_0; have := p.isLt; omega⟩

/-! ## Each window's block at a point, read at an entry

A block's coordinate on an axis is its block index times the block's extent plus the coordinate inside the block. A block
is its window's array read at those coordinates (the change of element type between a window and its array is the
identity here); the array's contents are opened one level, to the fold of the host
operations over the launch memory, and no further: there the window's array and the named buffer are one reference. -/

/-- Entry (p, q) of point `t`'s block of the result array is entry (5000·t + p, q) of the array. -/
theorem result_index (t : Fin cfg0.N) (p : Fin 5000) (q : Fin 128) :
    ((cfg0.win 5).blk t).view.emb (ix2 p q) = ix2 (node t p) q := by
  obtain ⟨-, -, -, -, -, -, -, -, -, -, e50, e51⟩ := block_indices t
  exact funext fun a => Fin.ext (by
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega)

/-- Point `t`'s block of own rows: row `p` of the block is row 5000·t + p of the table. -/
theorem own_block (c : Dev nD) (t : Fin cfg0.N) (p : Fin 5000) (k : Fin 128) :
    (iblk m c 0 t : Vec Ideal S5000x128 .f32) (ix2 p k)
      = Cert.ReferenceIdeal.Read.val_main_v29 (F := Ideal) (m ((c : Thread nD τ).loc main_arg0)) (m ((c : Thread nD τ).loc main_arg1))
          (ix2 (node t p) k) := by
  obtain ⟨e00, e01, -⟩ := block_indices t
  have h : ((cfg0.win 0).blk t).view.emb (ix2 p k) = ix2 (node t p) k := funext fun a => Fin.ext (by
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega)
  unfold iblk
  rw [View.read_apply, h]
  refine (cast_eq _ _).trans ?_
  unfold V
  exact congrFun (ownRows_after m c) _

/-- Point `t`'s block of neighbour means, likewise. -/
theorem mean_block (c : Dev nD) (t : Fin cfg0.N) (p : Fin 5000) (k : Fin 128) :
    (iblk m c 1 t : Vec Ideal S5000x128 .f32) (ix2 p k)
      = Cert.ReferenceIdeal.Read.val_main_v36 (F := Ideal) (m ((c : Thread nD τ).loc main_arg0)) (m ((c : Thread nD τ).loc main_arg1))
          (m ((c : Thread nD τ).loc main_arg2)) (ix2 (node t p) k) := by
  obtain ⟨-, -, e10, e11, -⟩ := block_indices t
  have h : ((cfg0.win 1).blk t).view.emb (ix2 p k) = ix2 (node t p) k := funext fun a => Fin.ext (by
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega)
  unfold iblk
  rw [View.read_apply, h]
  refine (cast_eq _ _).trans ?_
  unfold V
  exact congrFun (meanRows_after m c) _

/-- The first weight half is one block, the same at every point: entry (k, q) is the weight at row `q`, column `k`. -/
theorem first_block (c : Dev nD) (t : Fin cfg0.N) (k q : Fin 128) :
    (iblk m c 2 t : Vec Ideal S128x128 .f32) (ix2 k q) = m ((c : Thread nD τ).loc main_arg3) (ix2 q (lo k)) := by
  obtain ⟨-, -, -, -, e20, e21, -⟩ := block_indices t
  have h : ((cfg0.win 2).blk t).view.emb (ix2 k q) = ix2 k q := funext fun a => Fin.ext (by
    match a with
    | ⟨0, _⟩ => show win0_2.index t (0 : Fin 2) * 128 + 1 * k.val = k.val; rw [e20]; omega
    | ⟨1, _⟩ => show win0_2.index t (1 : Fin 2) * 128 + 1 * q.val = q.val; rw [e21]; omega)
  unfold iblk
  rw [View.read_apply, h]
  refine (cast_eq _ _).trans ?_
  unfold V
  exact firstHalf_after m c k q

/-- The second weight half, likewise: entry (k, q) is the weight at row `q`, column `128 + k`. -/
theorem second_block (c : Dev nD) (t : Fin cfg0.N) (k q : Fin 128) :
    (iblk m c 3 t : Vec Ideal S128x128 .f32) (ix2 k q) = m ((c : Thread nD τ).loc main_arg3) (ix2 q (hi k)) := by
  obtain ⟨-, -, -, -, -, -, e30, e31, -⟩ := block_indices t
  have h : ((cfg0.win 3).blk t).view.emb (ix2 k q) = ix2 k q := funext fun a => Fin.ext (by
    match a with
    | ⟨0, _⟩ => show win0_3.index t (0 : Fin 2) * 128 + 1 * k.val = k.val; rw [e30]; omega
    | ⟨1, _⟩ => show win0_3.index t (1 : Fin 2) * 128 + 1 * q.val = q.val; rw [e31]; omega)
  unfold iblk
  rw [View.read_apply, h]
  refine (cast_eq _ _).trans ?_
  unfold V
  exact secondHalf_after m c k q

/-- The bias row is one block, the same at every point: entry (0, q) is the bias at `q`. -/
theorem bias_block (c : Dev nD) (t : Fin cfg0.N) (q : Fin 128) :
    (iblk m c 4 t : Vec Ideal S1x128 .f32) (ix2 (0 : Fin 1) q) = m ((c : Thread nD τ).loc main_arg4) (ix1 q) := by
  obtain ⟨-, -, -, -, -, -, -, -, e40, e41, -⟩ := block_indices t
  have h : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e40]
    | ⟨1, _⟩ => show win0_4.index t (1 : Fin 2) * 128 + 1 * q.val = q.val; rw [e41]; omega)
  unfold iblk
  rw [View.read_apply, h]
  refine (cast_eq _ _).trans ?_
  unfold V
  exact biasRow_after m c q

/-! ## From the blocks to the array -/

/-- WHAT POINT `t` WRITES BACK is block `t` of the layer's result. -/
theorem flushed_eq (c : Dev nD) (t : Fin cfg0.N) (hf : (cfg0.win 5).flush t = true) :
    (dats m 0 c).flushed 5 t = ((cfg0.win 5).blk t).view.read (Elt Ideal) (result m c) := by
  rw [Cert.KernelIdeal.Value.flushed5]
  unfold out0_5
  rw [View.canon_unit_zero zero_offsets]
  simp only [View.ld_unit_zero (S := S5000x128) zero_offsets, View.ld_unit_zero (S := S128x128) zero_offsets,
    View.ld_unit_zero (S := S1x128) zero_offsets]
  refine funext fun (y : S5000x128.Idx) => ?_
  obtain ⟨p, q, rfl⟩ : ∃ (p : Fin 5000) (q : Fin 128), y = ix2 p q := ⟨y 0, y 1, eq_ix2 y⟩
  rw [View.read_apply, result_index t p q]
  refine Eq.trans ?_ (cast_eq _ _).symm
  -- the window is not clipped: what is written back at (p, q) is what the body stored at (p, q)
  have hx : (cfg0.win 5).xinj (grid0.coords t) (ix2 p q) = ix2 p q :=
    funext fun a => Fin.ext (by match a with | ⟨0, _⟩ => rfl | ⟨1, _⟩ => rfl)
  show k0_pay1 (F := Ideal) (iblk m c 0 t) (iblk m c 1 t) (iblk m c 2 t) (iblk m c 3 t) (iblk m c 4 t)
      ((cfg0.win 5).xinj (grid0.coords t) (ix2 p q)) = _
  rw [hx]
  unfold result
  rw [layer_apply]
  exact Cert.KernelIdeal.Body.stored_is_entry _ _ _ _ (iblk m c 0 t) (iblk m c 1 t) (iblk m c 2 t) (iblk m c 3 t) (iblk m c 4 t)
    (node t p) p q (fun k => own_block m c t p k) (fun k => mean_block m c t p k) (fun k => first_block m c t k q)
    (fun k => second_block m c t k q) (bias_block m c t q)

/-- An index of the result array is in point `t`'s block iff each coordinate is in the block's range on its axis. -/
theorem mem_block (t : Fin cfg0.N) (i : S50000x128.Idx) :
    i ∈ ((cfg0.win 5).blk t).view.set ↔
      ∀ a : Fin 2, win0_5.index t a * S5000x128.size a ≤ (i a).val ∧ (i a).val < win0_5.index t a * S5000x128.size a + S5000x128.size a := by
  show i ∈ ((View.whole main_v42).slice (win0_5.rect t)).set ↔ _
  rw [View.set_slice_whole, Rect.mem_set_unit]
  exact Iff.rfl

/-- EVERY INDEX IS COVERED: row `r` lies in the block of point `r / 5000`. -/
theorem covered (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  let t : Fin cfg0.N := ⟨(i 0).val / 5000, by omega⟩
  obtain ⟨-, -, -, -, -, -, -, -, -, -, e50, e51⟩ := block_indices t
  have ht : t.val = (i 0).val / 5000 := rfl
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

/-- THE RESULT ARRAY after the run is the layer's result. -/
theorem final (c : Dev nD) : (dats m 0 c).arrAt 5 cfg0.N = result m c :=
  (dats m 0 c).arrAt_eq_of_cover 5 (result m c) (flushed_eq m c) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v42) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.LayerValue

end
-- ==== Proof.RefValue.lean ====
/-
  The reference's result, index by index, is the layer (Spec.lean) of the two gathered row tables.

  The reference lays each seed node's own row and its neighbours' mean side by side into one row of 256 numbers,
  multiplies by the transposed weight in ONE product contracted over all 256 columns, adds the bias along the rows and
  takes the positive part. Read at entry (p, j): the product is the sum over c < 256 of joined(p, c) · W(j, c); the
  joined row's first 128 entries are the node's own row and its last 128 the neighbours' mean; the bias reads b(j).
  That is the one-sum form of the layer's entry (`entry_of_joined`). How the two row tables come out of the graph —
  the gathers and the scatter-adds — is never opened: they enter only as the two tables.
-/
import proofs.«117298_j42502996361302_1_alg».proof.Proof.Gen.ReferenceIdeal.Read
import proofs.«117298_j42502996361302_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SageLayer

/-- The joined row of node `p`: below column 128 it is the node's own row. -/
theorem joined_lo (s n : S50000x128.Idx → EReal) (p : Fin 50000) (k : Fin 128) :
    concatenate S50000x256 1 [⟨S50000x128, s⟩, ⟨S50000x128, n⟩] concatenates_S50000x128_S50000x128_S50000x256_d1
      (ix2 p (lo k)) = s (ix2 p k) :=
  concatenate_pair_apply_left 1 s n concatenates_S50000x128_S50000x128_S50000x256_d1 _ rfl _ (fun b => by
    match b with
    | ⟨0, _⟩ => rfl
    | ⟨1, _⟩ => rfl)

/-- From column 128 on it is the neighbours' mean, 128 columns earlier. -/
theorem joined_hi (s n : S50000x128.Idx → EReal) (p : Fin 50000) (k : Fin 128) :
    concatenate S50000x256 1 [⟨S50000x128, s⟩, ⟨S50000x128, n⟩] concatenates_S50000x128_S50000x128_S50000x256_d1
      (ix2 p (hi k)) = n (ix2 p k) :=
  concatenate_pair_apply_right 1 s n concatenates_S50000x128_S50000x128_S50000x256_d1 _ rfl rfl _
    (fun b hb => by
      match b with
      | ⟨0, _⟩ => rfl
      | ⟨1, _⟩ => exact absurd rfl hb)
    (by show k.val + 128 = 128 + k.val; omega)

/-- The left operand of the product is read at row `p`, column `c`. -/
theorem lidx_eq (p : Fin 50000) (j : Fin 128) (c : Fin 256) : lidx_main_v39 (ix2 p j) c = ix2 p c :=
  funext fun a => Fin.ext (by match a with | ⟨0, _⟩ => rfl | ⟨1, _⟩ => rfl)

/-- The transposed weight read where the product reads it is the weight at row `j`, column `c`. -/
theorem widx_eq (p : Fin 50000) (j : Fin 128) (c : Fin 256) : idx_main_v38 (ridx_main_v39 (ix2 p j) c) = ix2 j c :=
  funext fun a => Fin.ext (by match a with | ⟨0, _⟩ => rfl | ⟨1, _⟩ => rfl)

/-- The bias laid along the rows reads its entry `j`. -/
theorem bidx_eq (p : Fin 50000) (j : Fin 128) : idx_main_v40 (idx_main_v41 (ix2 p j)) = ix1 j :=
  funext fun a => Fin.ext (by match a with | ⟨0, _⟩ => rfl)

/-- THE REFERENCE IS THE LAYER: its last stage, at the extended reals, is `layer` of its own two row tables (stages
    `%29` and `%36`), the weight and the bias. -/
theorem result_eq (x0 : (⟨S50000, .i32⟩ : BufTy).Contents (Elt Ideal)) (x1 : (⟨S100000x128, .f32⟩ : BufTy).Contents (Elt Ideal))
    (x2 : (⟨S2x1600000, .i32⟩ : BufTy).Contents (Elt Ideal)) (x3 : (⟨S128x256, .f32⟩ : BufTy).Contents (Elt Ideal))
    (x4 : (⟨S128, .f32⟩ : BufTy).Contents (Elt Ideal)) :
    val_main_v43 (F := Ideal) x0 x1 x2 x3 x4
      = layer (val_main_v29 (F := Ideal) x0 x1) (val_main_v36 (F := Ideal) x0 x1 x2) x3 x4 := by
  funext i
  obtain ⟨p, j, rfl⟩ : ∃ (p : Fin 50000) (j : Fin 128), i = ix2 p j := ⟨i 0, i 1, eq_ix2 i⟩
  rw [layer_apply, val_main_v43_apply, val_main_v42_apply, val_main_v39_apply, val_main_v41_apply, val_main_v40_apply,
    val_main_call0_v0_apply, val_main_call0_cst_apply]
  simp only [val_main_v38_apply, lidx_eq, widx_eq, bidx_eq, Ideal.maximumf_def, Ideal.addf_def, Ideal.ofBits_def,
    Ideal.ofBits_zero_f32]
  unfold val_main_v37
  generalize val_main_v29 (F := Ideal) x0 x1 = s
  generalize val_main_v36 (F := Ideal) x0 x1 x2 = n
  exact entry_of_joined s n x3 x4 p j
    (fun c => concatenate S50000x256 1 [⟨S50000x128, s⟩, ⟨S50000x128, n⟩] concatenates_S50000x128_S50000x128_S50000x256_d1 (ix2 p c))
    (joined_lo s n p) (joined_hi s n p)

end Cert.ReferenceIdeal.RefValue

end
-- ==== Proof.lean ====
/- The proof of `Cert.Claim`: a mean-aggregating graph layer's dense tail, computed two ways.

   Both programs start with the same host operations on the same arguments: from the edge list they scatter-add the
   features of every edge's far end onto its near end and count the edges, divide the sums by the counts (at least 1),
   and gather, for each of the 50000 seed nodes, its own feature row and its neighbours' mean row. Those two tables of
   128-number rows are never opened here: both sides apply one chain to one input, and they enter only as two tables
   `s` and `n`.

   The programs differ in the tail. The kernel's one region, ten blocks of 5000 nodes, multiplies each block of own rows
   by the first 128 columns of the weight (transposed) and each block of means by the last 128, adds the two products
   and the bias, and takes the positive part. The reference joins each node's two rows into one row of 256 numbers and
   multiplies by the whole weight in one product. On the extended reals every change of float format is the identity,
   so entry (p, j) is, on the kernel's side,
       max (∑ₖ s(p,k)·W(j,k) + ∑ₖ n(p,k)·W(j,128+k) + b(j)) 0
   and on the reference's side
       max (∑_{c<256} joined(p,c)·W(j,c) + b(j)) 0,
   where joined(p, ·) is s(p, ·) followed by n(p, ·). The two agree because a sum over 256 indices is the sum over the
   first 128 plus the sum over the last 128 — a regrouping in a commutative monoid, which holds with infinite terms
   too: the precondition (finite inputs) is never used by the value claim.

   Spec.lean states the layer and that regrouping; RefValue.lean reads the reference's last stage as the layer;
   KernelBody.lean reads what the kernel's body stores at one entry; KernelHost.lean says what the region finds in its
   windows' arrays; KernelValue.lean puts the ten blocks together into the whole result array. The three frames are
   the generated ones (the reference's is its run with the result dropped); the idealization rewrote nothing, so
   `preserves` is `True`. -/
import proofs.«117298_j42502996361302_1_alg».proof.Defs
import proofs.«117298_j42502996361302_1_alg».proof.Proof.Gen.Kernel
import proofs.«117298_j42502996361302_1_alg».proof.Proof.Gen.Kernel.Skeleton
import proofs.«117298_j42502996361302_1_alg».proof.Proof.Gen.Kernel.Launch
import proofs.«117298_j42502996361302_1_alg».proof.Proof.Gen.Kernel.Points
import proofs.«117298_j42502996361302_1_alg».proof.Proof.Gen.Kernel.Frame
import proofs.«117298_j42502996361302_1_alg».proof.Proof.Gen.KernelIdeal
import proofs.«117298_j42502996361302_1_alg».proof.Proof.Gen.KernelIdeal.Skeleton
import proofs.«117298_j42502996361302_1_alg».proof.Proof.Gen.KernelIdeal.Launch
import proofs.«117298_j42502996361302_1_alg».proof.Proof.Gen.KernelIdeal.Points
import proofs.«117298_j42502996361302_1_alg».proof.Proof.Gen.KernelIdeal.Frame
import proofs.«117298_j42502996361302_1_alg».proof.Proof.Gen.ReferenceIdeal
import proofs.«117298_j42502996361302_1_alg».proof.Proof.Gen.Pre_finite_inputs
import proofs.«117298_j42502996361302_1_alg».proof.Proof.Gen.KernelIdeal.Value
import proofs.«117298_j42502996361302_1_alg».proof.Proof.Gen.ReferenceIdeal.Run
import proofs.«117298_j42502996361302_1_alg».proof.Proof.Gen.ReferenceIdeal.Read
import proofs.«117298_j42502996361302_1_alg».proof.Proof.KernelValue
import proofs.«117298_j42502996361302_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, the kernel's result array ends at the layer of the
    arguments (KernelValue.lean) and the reference's at its last stage, which is the same layer (RefValue.lean). -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
